-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S64x4096 : Shape := ⟨2, ![64, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_

variable [Facts]

def fn {F : FTy → Type} [FloatOps F] (main_arg0 : FVec F S16384x4096 .f32) (main_arg1 : FVec F S64x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  main_v8
-- ==== Kernel.lean ====
abbrev S16384x4096 : Shape := ⟨2, ![16384, 4096]⟩
abbrev S64x4096 : Shape := ⟨2, ![64, 4096]⟩
abbrev S16384x64 : Shape := ⟨2, ![16384, 64]⟩
abbrev S512x4096 : Shape := ⟨2, ![512, 4096]⟩
abbrev S512x64 : Shape := ⟨2, ![512, 64]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S64x4096, .f32⟩
  | .hbm, ⟨2, _⟩ => ⟨S16384x64, .f32⟩
  | .local _ .vmem, ⟨0, _⟩ => ⟨S512x4096, .f32⟩
  | .local _ .vmem, ⟨1, _⟩ => ⟨S512x4096, .f32⟩
  | .local _ .vmem, ⟨2, _⟩ => ⟨S64x4096, .f32⟩
  | .local _ .vmem, ⟨3, _⟩ => ⟨S512x64, .f32⟩
  | .local _ .vmem, ⟨4, _⟩ => ⟨S512x64, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x4096_S512x4096_0_0 : ∀ a, (![0, 0] : Fin 2 → Nat) a + S512x4096.size a ≤ S512x4096.size a
  h_S512x4096 : 0 < S512x4096.numel
  inb_S64x4096_S64x4096_0_0 : ∀ a, (![0, 0] : Fin 2 → Nat) a + S64x4096.size a ≤ S64x4096.size a
  h_S64x4096 : 0 < S64x4096.numel
  reduces_S512x64_S512 : S512x64.Reduces [1] S512
  shapeCasts_S512_S512x1 : S512.ShapeCasts S512x1
  broadcasts_S512x1_S512x64 : S512x1.Broadcasts S512x64
  inb_S512x64_S512x64_0_0 : ∀ a, (![0, 0] : Fin 2 → Nat) a + S512x64.size a ≤ S512x64.size a
  h_S512x64 : 0 < S512x64.numel
  dot_S512x4096_S64x4096_S512x64_1_1_0_0_n_n_wf : DotDims.WF S512x4096 S64x4096 S512x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S16384x64.size a
  hwx0_2 : ∀ i : grid0.Coords, EltTy.bits .f32 = 32 ∨ (Rect.block (s := S16384x64) S512x64.size (cc0_transform_2 i) (hinb0_2 i)).WholeWords (EltTy.packing .f32)

variable [Facts₀]

def dot_S512x4096_S64x4096_S512x64_1_1_0_0_n_n : DotDims S512x4096 S64x4096 S512x64 where
  lhsContracting := [1]
  rhsContracting := [1]
  lhsNonContracting := [0]
  rhsNonContracting := [0]
  lhsBatch := []
  rhsBatch := []
  wf := dot_S512x4096_S64x4096_S512x64_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S64x4096 : Shape := ⟨2, ![64, 4096]⟩
abbrev S4096x64 : Shape := ⟨2, ![4096, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S64x4096, .f32⟩
  | .hbm, ⟨2, _⟩ => ⟨S4096x64, .f32⟩
  | .hbm, ⟨3, _⟩ => ⟨S16384x64, .f32⟩
  | .hbm, ⟨4, _⟩ => ⟨S_, .f32⟩
  | .hbm, ⟨5, _⟩ => ⟨S16384, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S16384x1, .f32⟩
  | .hbm, ⟨10, _⟩ => ⟨S16384x64, .f32⟩
  | .hbm, ⟨11, _⟩ => ⟨S16384x64, .f32⟩
  | .hbm, ⟨12, _⟩ => ⟨S16384x64, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x64, .f32⟩
  | .hbm, ⟨17, _⟩ => ⟨S16384x64, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  transposes_S64x4096_S4096x64_1_0 : S64x4096.Transposes [1, 0] S4096x64
  reducesTo_S16384x64_S16384_d1 : S16384x64.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  dot_S16384x4096_S4096x64_S16384x64_1_0_0_1_n_n_wf : DotDims.WF S16384x4096 S4096x64 S16384x64 [1] [0] [0] [1] [] []

variable [Facts₀]

def dot_S16384x4096_S4096x64_S16384x64_1_0_0_1_n_n : DotDims S16384x4096 S4096x64 S16384x64 where
  lhsContracting := [1]
  rhsContracting := [0]
  lhsNonContracting := [0]
  rhsNonContracting := [1]
  lhsBatch := []
  rhsBatch := []
  wf := dot_S16384x4096_S4096x64_S16384x64_1_0_0_1_n_n_wf

class Facts : Prop extends Facts₀ where

variable [Facts]
-- ==== Proof.LibColumns.lean ====
/-
  A column kept by a row reduction: the two layout operations a sum over the last axis with the axis kept
  (`keepdims`) goes through before it meets the array it was taken from again, read at an index.

  An `[a]` vector of row values is cast to an `[a, 1]` column (row-major order is unchanged: entry `i` of the
  vector is entry `(i, 0)` of the column), and the column is broadcast along the second axis to `[a, b]`
  (every entry of row `p` reads the column at `p`). Both over any element type and any extents.
-/
import Idealize.ShloMosaic.Lib.Pipeline.Value
import Idealize.ShloMosaic.Lib.ValueIdx

namespace Cert.Columns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.Columns
-- ==== Proof.KernelPayload.lean ====
/-
  What the kernel body stores, at one entry of its block.

  The body loads a `[512, 4096]` block `x` of the activations and the whole `[64, 4096]` weight `w`, forms the
  scores `y p q = ∑ k, x p k * w q k` (a matrix product contracting the second axis of both operands, into a zero
  accumulator), exponentiates them, sums each row's 64 exponentials, keeps that sum as a column, broadcasts the
  column back along the row, and divides. Read at `(p, q)` on the extended reals this is
      exp (y p q) / ∑ e, exp (y p e).
-/
import proofs.«165883_g14611478741617_cont_week2b_1432_18_alg».proof.Proof.Gen.KernelIdeal.Skeleton
import proofs.«165883_g14611478741617_cont_week2b_1432_18_alg».proof.Proof.LibColumns
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## The product's operand indices, axis by axis -/

theorem lhs_0 (i : S512x64.Idx) (q : dot_S512x4096_S64x4096_S512x64_1_1_0_0_n_n.contr.Idx) :
    (dot_S512x4096_S64x4096_S512x64_1_1_0_0_n_n.lhsIdx i q 0).val = (i 0).val := by
  unfold DotDims.lhsIdx
  rw [dif_neg (show ¬(0 : Fin S512x4096.rank) ∈ dot_S512x4096_S64x4096_S512x64_1_1_0_0_n_n.lhsBatch by decide), dif_pos (show (0 : Fin S512x4096.rank) ∈ dot_S512x4096_S64x4096_S512x64_1_1_0_0_n_n.lhsNonContracting by decide)]
  rfl
theorem lhs_1 (i : S512x64.Idx) (q : dot_S512x4096_S64x4096_S512x64_1_1_0_0_n_n.contr.Idx) :
    (dot_S512x4096_S64x4096_S512x64_1_1_0_0_n_n.lhsIdx i q 1).val = (q ⟨0, by decide⟩).val :=
  dot_S512x4096_S64x4096_S512x64_1_1_0_0_n_n.lhsIdx_val_of_single rfl i q
theorem rhs_0 (i : S512x64.Idx) (q : dot_S512x4096_S64x4096_S512x64_1_1_0_0_n_n.contr.Idx) :
    (dot_S512x4096_S64x4096_S512x64_1_1_0_0_n_n.rhsIdx i q 0).val = (i 1).val := by
  unfold DotDims.rhsIdx
  rw [dif_neg (show ¬(0 : Fin S64x4096.rank) ∈ dot_S512x4096_S64x4096_S512x64_1_1_0_0_n_n.rhsBatch by decide), dif_pos (show (0 : Fin S64x4096.rank) ∈ dot_S512x4096_S64x4096_S512x64_1_1_0_0_n_n.rhsNonContracting by decide)]
  rfl
theorem rhs_1 (i : S512x64.Idx) (q : dot_S512x4096_S64x4096_S512x64_1_1_0_0_n_n.contr.Idx) :
    (dot_S512x4096_S64x4096_S512x64_1_1_0_0_n_n.rhsIdx i q 1).val = (q ⟨0, by decide⟩).val :=
  dot_S512x4096_S64x4096_S512x64_1_1_0_0_n_n.rhsIdx_val_of_single rfl i q

/-- The scores: entry `(p, q)` of the product into a zero accumulator is the sum over the 4096 contracted
    coordinates of row `p` of the block times row `q` of the weight. -/
theorem scores_apply (x : FVec Ideal S512x4096 .f32) (w : FVec Ideal S64x4096 .f32) (p : Fin 512) (q : Fin 64) :
    matmul dot_S512x4096_S64x4096_S512x64_1_1_0_0_n_n none x w (constant (F := Ideal) S512x64 .f32 0x00000000#32) (ix2 p q)
      = ∑ k : Fin 4096, x (ix2 p k) * w (ix2 q k) := by
  simp only [matmul]
  rw [Ideal.matmul_constant_zero_apply, ← Equiv.sum_comp (ValueIdx.contrEquiv1 dot_S512x4096_S64x4096_S512x64_1_1_0_0_n_n 4096 rfl rfl).symm]
  refine Finset.sum_congr rfl fun k _ => ?_
  have hk := ValueIdx.contrEquiv1_symm_val dot_S512x4096_S64x4096_S512x64_1_1_0_0_n_n 4096 rfl rfl k
  have el : dot_S512x4096_S64x4096_S512x64_1_1_0_0_n_n.lhsIdx (ix2 p q) ((ValueIdx.contrEquiv1 dot_S512x4096_S64x4096_S512x64_1_1_0_0_n_n 4096 rfl rfl).symm k) = ix2 p k := funext fun a => Fin.ext (by
    match a with
    | ⟨0, _⟩ => exact lhs_0 _ _
    | ⟨1, _⟩ => exact (lhs_1 _ _).trans hk)
  have er : dot_S512x4096_S64x4096_S512x64_1_1_0_0_n_n.rhsIdx (ix2 p q) ((ValueIdx.contrEquiv1 dot_S512x4096_S64x4096_S512x64_1_1_0_0_n_n 4096 rfl rfl).symm k) = ix2 q k := funext fun a => Fin.ext (by
    match a with
    | ⟨0, _⟩ => exact rhs_0 _ _
    | ⟨1, _⟩ => exact (rhs_1 _ _).trans hk)
  rw [el, er]

/-- A row's sum: the reduction over the second axis, from zero, at row `p` is the sum of the row's 64 entries. -/
theorem rowsum_apply (v : FVec Ideal S512x64 .f32) (hφ : FKind.Formats .f32)
    (hacc : (0x00000000#32 : BitVec 32) = FKind.add.neutral .f32 hφ) (p : Fin 512) :
    multiReduction .add [1] S512 v 0x00000000#32 reduces_S512x64_S512 hφ hacc (ix1 p) = ∑ e : Fin 64, v (ix2 p e) := by
  refine (Ideal.multiReduction_add_single v 0x00000000#32 reduces_S512x64_S512 hφ hacc (ix1 p)).trans ?_
  exact Finset.sum_congr rfl fun e _ => congrArg v (funext fun a => Fin.ext (by
    match a with
    | ⟨0, _⟩ => rfl
    | ⟨1, _⟩ => rfl))

/-- The divisor: the row sums kept as a column and broadcast back along the row read, at `(p, q)`, row `p`'s sum. -/
theorem divisor_apply (v : FVec Ideal S512x64 .f32) (hφ : FKind.Formats .f32)
    (hacc : (0x00000000#32 : BitVec 32) = FKind.add.neutral .f32 hφ) (p : Fin 512) (q : Fin 64) :
    broadcastTo S512x64 (shapeCast S512x1 (multiReduction .add [1] S512 v 0x00000000#32 reduces_S512x64_S512 hφ hacc)
        shapeCasts_S512_S512x1) broadcasts_S512x1_S512x64 (ix2 p q)
      = ∑ e : Fin 64, v (ix2 p e) :=
  (Cert.Columns.broadcastTo_a1_ab_apply _ broadcasts_S512x1_S512x64 p q).trans
    ((Cert.Columns.shapeCast_a_a1_apply _ shapeCasts_S512_S512x1 p 0).trans (rowsum_apply v hφ hacc p))

/-- THE PAYLOAD AT AN ENTRY: the stored block at `(p, q)` is the exponential of the score there over the sum of the
    exponentials of row `p`'s scores. -/
theorem pay_apply (x : Vec Ideal S512x4096 .f32) (w : Vec Ideal S64x4096 .f32) (p : Fin 512) (q : Fin 64) :
    k0_pay1 (F := Ideal) x w (ix2 p q)
      = Ideal.div (Ideal.exp (∑ k : Fin 4096, x (ix2 p k) * w (ix2 q k)))
          (∑ e : Fin 64, Ideal.exp (∑ k : Fin 4096, x (ix2 p k) * w (ix2 e k))) := by
  unfold k0_pay1
  refine (divf_apply _ _ (ix2 p q)).trans ?_
  refine congrArg₂ Ideal.div ?_ ?_
  · exact congrArg Ideal.exp (scores_apply x w p q)
  · refine (divisor_apply _ _ _ p q).trans ?_
    exact Finset.sum_congr rfl fun e _ => congrArg Ideal.exp (scores_apply x w p e)

end Cert.KernelIdeal.Payload

end
-- ==== Proof.Gate.lean ====
/-
  The function both programs compute: the softmax over 64 experts of the gate scores of 16384 tokens.

  For activations `x : [16384, 4096]` and a gate weight `w : [64, 4096]`, the score of token `r` for expert `e` is
  the dot product of row `r` of `x` and row `e` of `w`, and the result at `(r, e)` is
      exp (score r e) / ∑ e', exp (score r e'),
  stated on the extended reals with the operations the idealized programs are read at.
-/
import Idealize.ShloMosaic.PureOps.Ideal
import Idealize.ShloMosaic.Lib.ValueIdx

noncomputable section

namespace Cert.Softmax

open Idealize.ShloMosaic Idealize.ShloMosaic.ValueIdx

/-- Token `r`'s score for expert `e`: the dot product of the token's 4096 features with the expert's weights. -/
def score (x : (⟨2, ![16384, 4096]⟩ : Shape).Idx → EReal) (w : (⟨2, ![64, 4096]⟩ : Shape).Idx → EReal)
    (r : Fin 16384) (e : Fin 64) : EReal :=
  ∑ k : Fin 4096, x (ix2 r k) * w (ix2 e k)

/-- The gate: each token's scores through the softmax over the 64 experts. -/
def gate (x : (⟨2, ![16384, 4096]⟩ : Shape).Idx → EReal) (w : (⟨2, ![64, 4096]⟩ : Shape).Idx → EReal) :
    (⟨2, ![16384, 64]⟩ : Shape).Idx → EReal :=
  fun i => Ideal.div (Ideal.exp (score x w (i 0) (i 1))) (∑ e : Fin 64, Ideal.exp (score x w (i 0) e))

end Cert.Softmax

end
-- ==== Proof.KernelArray.lean ====
/-
  From the blocks the kernel writes to the whole result array.

  The grid has 32 points; point `t` stages rows `512 t … 512 t + 511` of the activations and the whole weight, and
  writes back rows `512 t … 512 t + 511` of the result. Since a result entry depends only on its own row of the
  activations (and on all of the weight), the block point `t` writes is the restriction of the gate function of
  the whole arrays to those rows; the 32 row blocks tile the `[16384, 64]` result, so the array ends holding the
  gate function.
-/
import proofs.«165883_g14611478741617_cont_week2b_1432_18_alg».proof.Proof.Gen.KernelIdeal.Value
import proofs.«165883_g14611478741617_cont_week2b_1432_18_alg».proof.Proof.KernelPayload
import proofs.«165883_g14611478741617_cont_week2b_1432_18_alg».proof.Proof.Gate

noncomputable section

namespace Cert.KernelIdeal.Whole

open Cert.KernelIdeal Cert.KernelIdeal.Gen Idealize.ShloMosaic Idealize.ShloMosaic.TcCoe Idealize.SL.Sem
open Idealize.ShloMosaic.ValueIdx Cert.Softmax
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- A block's entry from the whole arrays: if the loaded block `x` is rows `512 b …` of `X` and the loaded weight is
    `W` itself, the stored value at `j` is the gate function of `(X, W)` at row `512 b + j₀`, column `j₁`. -/
theorem block_entry (X : (⟨2, ![16384, 4096]⟩ : Shape).Idx → EReal) (W : (⟨2, ![64, 4096]⟩ : Shape).Idx → EReal)
    (x : Vec Ideal S512x4096 .f32) (w : Vec Ideal S64x4096 .f32) (b : ℕ) (hb : b < 32)
    (hx : ∀ y : S512x4096.Idx, x y = X (ix2 ⟨b * 512 + (y 0).val, by have h0 : (y 0).val < 512 := (y 0).isLt; omega⟩ (y 1)))
    (hw : ∀ y : S64x4096.Idx, w y = W y) (j : S512x64.Idx) :
    k0_pay1 (F := Ideal) x w j = gate X W (ix2 ⟨b * 512 + (j 0).val, by have h0 : (j 0).val < 512 := (j 0).isLt; omega⟩ (j 1)) := by
  obtain ⟨p, q, rfl⟩ : ∃ (p : Fin 512) (q : Fin 64), j = ix2 p q := ⟨j 0, j 1, eq_ix2 j⟩
  rw [Payload.pay_apply]
  unfold gate score
  simp only [hx, hw]

/-- The printed index maps, decided over the 32 points: the activations' block moves with the result's along the
    rows, every other block index is zero, and the result's row-block index is below 32. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) < 32 :=
  (by decide +kernel : ∀ t : Fin grid0.N, _)

/-- Every row block of the result is some point's. -/
theorem idx_onto : ∀ (q0 : Fin 32), ∃ t : Fin cfg0.N, win0_2.index t = ![q0.val, 0] :=
  (by decide +kernel : ∀ (q0 : Fin 32), ∃ t : Fin grid0.N, win0_2.index t = ![q0.val, 0])

/-- WHAT POINT `t` WRITES BACK is block `t` of the gate function of the argument arrays. -/
theorem flushed_eq (c : Dev nD) (t : Fin cfg0.N) :
    (dats m 0 c).flushed 2 t
      = ((cfg0.win 2).blk t).view.read (Elt Ideal) (gate (V m c main_arg0) (V m c main_arg1)) := by
  rw [Cert.KernelIdeal.Value.flushed2]
  unfold out0_2
  rw [View.canon_unit_zero hz]
  simp only [View.ld_unit_zero (S := S512x4096) hz, View.ld_unit_zero (S := S64x4096) hz]
  obtain ⟨e0, e1, e2, e3, e4, e5⟩ := idx_facts t
  funext j
  show k0_pay1 (F := Ideal) (iblk m c 0 t) (iblk m c 1 t) j
    = gate (V m c main_arg0) (V m c main_arg1) (((cfg0.win 2).blk t).view.emb j)
  refine (block_entry (V m c main_arg0) (V m c main_arg1) (iblk m c 0 t) (iblk m c 1 t) (win0_2.index t (0 : Fin 2)) e5 ?_ ?_ j).trans ?_
  · intro y
    show V m c main_arg0 (((cfg0.win 0).blk t).view.emb y) = V m c main_arg0 _
    refine congrArg _ (funext fun a => Fin.ext ?_)
    match a with
    | ⟨0, _⟩ => show win0_0.index t (0 : Fin 2) * 512 + 1 * (y 0).val = win0_2.index t (0 : Fin 2) * 512 + (y 0).val; omega
    | ⟨1, _⟩ => show win0_0.index t (1 : Fin 2) * 4096 + 1 * (y 1).val = (y 1).val; omega
  · intro y
    show V m c main_arg1 (((cfg0.win 1).blk t).view.emb y) = V m c main_arg1 y
    refine congrArg _ (funext fun a => Fin.ext ?_)
    match a with
    | ⟨0, _⟩ => show win0_1.index t (0 : Fin 2) * 64 + 1 * (y 0).val = (y 0).val; omega
    | ⟨1, _⟩ => show win0_1.index t (1 : Fin 2) * 4096 + 1 * (y 1).val = (y 1).val; omega
  · refine congrArg _ (funext fun a => Fin.ext ?_)
    match a with
    | ⟨0, _⟩ => show win0_2.index t (0 : Fin 2) * 512 + (j 0).val = win0_2.index t (0 : Fin 2) * 512 + 1 * (j 0).val; omega
    | ⟨1, _⟩ => show (j 1).val = win0_2.index t (1 : Fin 2) * 64 + 1 * (j 1).val; omega

/-- An index of the result is in point `t`'s block iff each coordinate is in the block's range on its axis. -/
theorem mem_blk (t : Fin cfg0.N) (i : S16384x64.Idx) :
    i ∈ ((cfg0.win 2).blk t).view.set ↔ ∀ a : Fin 2, win0_2.index t a * S512x64.size a ≤ (i a).val ∧ (i a).val < win0_2.index t a * S512x64.size a + S512x64.size a := by
  show i ∈ ((View.whole main_v0).slice (win0_2.rect t)).set ↔ _
  rw [View.set_slice_whole, Rect.mem_set_unit]
  exact Iff.rfl

/-- THE COVER: every index of the result lies in the block of the point its row falls in, `row / 512`. -/
theorem cover (i : S16384x64.Idx) :
    ∃ t : Fin cfg0.N, (cfg0.win 2).flush t = true ∧ i ∈ ((cfg0.win 2).blk t).view.set := by
  have hi0 : (i 0).val < 16384 := (i 0).isLt
  have hi1 : (i 1).val < 64 := (i 1).isLt
  obtain ⟨t, ht⟩ := idx_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 64 ≤ (i 1).val ∧ (i 1).val < win0_2.index t (1 : Fin 2) * 64 + 64; omega

/-- THE ARRAY after the run is the gate function of the argument arrays as launched. -/
theorem final (c : Dev nD) :
    (dats m 0 c).arrAt 2 cfg0.N
      = gate (m ((c : Thread nD τ).loc main_arg0)) (m ((c : Thread nD τ).loc main_arg1)) :=
  (dats m 0 c).arrAt_eq_of_cover 2 (gate (V m c main_arg0) (V m c main_arg1)) (fun t _ => flushed_eq m c t) cover

/-- The kernel's run, read: the result array ends at the gate function of the arguments, the arguments unchanged. -/
theorem run : θ_run defs (onTc (τ := τ) (main (F := Ideal))) ⟨m, fun _ => 0, ρ⟩ fun r => ∀ c : Dev nD,
      r.2.mem ((c : Thread nD τ).loc main_v0)
        = gate (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Whole

end
-- ==== Proof.LibSoftmax.lean ====
/-
  The algebra this certificate rests on, free of any program: the softmax of a row of REAL scores does not change
  when one real number is subtracted from every score first.

  For real scores `a k` and a real shift `M`,
      exp (a j - M) / ∑ k, exp (a k - M)  =  exp (a j) / ∑ k, exp (a k),
  because `exp (a k - M) = exp (a k) / exp M` with `exp M` a nonzero real, which leaves the sum as a common factor and
  cancels in the quotient. On the extended reals the same identity holds as long as every score and the shift are
  real (at an infinite score the difference `⊤ - ⊤` and the quotient `⊤ / ⊤` are conventions, and the two sides part),
  so the statements below are over coerced reals. The shift a reference takes is the row's maximum starting from
  `⊥`; for a nonempty row of reals that maximum is a real (`fold_max_real`).
-/
import Idealize.ShloMosaic.PureOps.Ideal

noncomputable section

namespace Cert.Softmax

open Idealize.ShloMosaic

/-- The coercion of a finite sum of reals is the sum of the coercions. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of products of reals is a real: the dot product of two real rows. -/
theorem dot_real {ι : Type*} [Fintype ι] (x w : ι → ℝ) :
    ∑ k, (x k : EReal) * (w k : EReal) = ((∑ k, x k * w k : ℝ) : EReal) := by
  rw [coe_sum]
  exact Finset.sum_congr rfl fun k _ => (EReal.coe_mul _ _).symm

/-- The quotient of two reals by the extended reals' division, the divisor not zero, is the real quotient. -/
theorem div_coe_coe {b : ℝ} (hb : b ≠ 0) (a : ℝ) : Ideal.div (a : EReal) (b : EReal) = ((a / b : ℝ) : EReal) := by
  rw [Ideal.div_coe hb, ← EReal.coe_mul, mul_one_div]

/-- THE LAW: subtracting one real from every real score leaves the softmax where it was. The shifted side carries the
    `0 +` a sum from an initial value has. -/
theorem softmax_shift {ι : Type*} [Fintype ι] (a : ι → ℝ) (M : ℝ) (j : ι) :
    Ideal.div (Ideal.exp ((a j : EReal) - (M : EReal))) (0 + ∑ k, Ideal.exp ((a k : EReal) - (M : EReal)))
      = Ideal.div (Ideal.exp (a j : EReal)) (∑ k, Ideal.exp (a k : EReal)) := by
  have hpos : 0 < ∑ k, Real.exp (a k) := Finset.sum_pos (fun i _ => Real.exp_pos _) ⟨j, Finset.mem_univ j⟩
  have hpos' : 0 < ∑ k, Real.exp (a k - M) := Finset.sum_pos (fun i _ => Real.exp_pos _) ⟨j, Finset.mem_univ j⟩
  simp only [← EReal.coe_sub, Ideal.exp_coe, ← coe_sum, zero_add]
  rw [div_coe_coe hpos'.ne', div_coe_coe hpos.ne']
  refine congrArg _ ?_
  simp only [Real.exp_sub, ← Finset.sum_div]
  exact div_div_div_cancel_right₀ (Real.exp_pos M).ne' _ _

/-- The maximum from `⊥` over a nonempty finite row of reals is a real. -/
theorem fold_max_real {ι : Type*} [Fintype ι] (a : ι → ℝ) (j : ι) :
    ∃ M : ℝ, max (⊥ : EReal) (Finset.univ.fold max (⊥ : EReal) fun k => (a k : EReal)) = (M : EReal) := by
  rw [max_eq_right bot_le]
  have htop : Finset.univ.fold max (⊥ : EReal) (fun k => (a k : EReal)) ≠ ⊤ :=
    ((Finset.fold_max_lt _).2 ⟨bot_lt_top, fun k _ => EReal.coe_lt_top _⟩).ne
  have hbot : Finset.univ.fold max (⊥ : EReal) (fun k => (a k : EReal)) ≠ ⊥ :=
    ((EReal.bot_lt_coe (a j)).trans_le ((Finset.le_fold_max _).2 (Or.inr ⟨j, Finset.mem_univ j, le_rfl⟩))).ne'
  lift Finset.univ.fold max (⊥ : EReal) (fun k => (a k : EReal)) to ℝ using ⟨htop, hbot⟩ with M
  exact ⟨M, rfl⟩

end Cert.Softmax

end
-- ==== Proof.RefGate.lean ====
/-
  The reference computes the gate function too, when every entry of its two arguments is a real number.

  The reference transposes the weight, multiplies, takes each row's maximum `M` (from `-∞`, and once more against
  `-∞`), subtracts it from the row, exponentiates, sums the row (from zero), and divides:
      exp (y r e - M r) / (0 + ∑ e', exp (y r e' - M r)),   M r = max ⊥ (max over e' of y r e' from ⊥).
  With real arguments every score `y r e` is a real (a finite sum of products of reals), so `M r` is a real, and
  the shift leaves the softmax where it was: the result is `exp (y r e) / ∑ e', exp (y r e')`, the gate function.
-/
import proofs.«165883_g14611478741617_cont_week2b_1432_18_alg».proof.Proof.Gen.ReferenceIdeal.Read
import proofs.«165883_g14611478741617_cont_week2b_1432_18_alg».proof.Proof.LibSoftmax
import proofs.«165883_g14611478741617_cont_week2b_1432_18_alg».proof.Proof.Gate
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.Softmax

variable (x0 : (⟨S16384x4096, .f32⟩ : BufTy).Contents (Elt Ideal)) (x1 : (⟨S64x4096, .f32⟩ : BufTy).Contents (Elt Ideal))

/-- The pattern of `-∞` is the bottom of the extended reals. -/
theorem ofBits_neg_inf : Ideal.ofBits .f32 0xFF800000#32 = ⊥ := by simp [Ideal.ofBits, Ideal.ieee]

/-- The product against the transposed weight, at `(r, e)`, is token `r`'s score for expert `e`. -/
theorem scores_apply (i : S16384x64.Idx) : val_main_v1 (F := Ideal) x0 x1 i = score x0 x1 (i 0) (i 1) := by
  rw [val_main_v1_apply]
  unfold score
  refine Finset.sum_congr rfl fun k _ => ?_
  rw [val_main_v0_apply]
  refine congrArg₂ (· * ·) (congrArg x0 (funext fun a => Fin.ext ?_)) (congrArg x1 (funext fun a => Fin.ext ?_))
  · match a with
    | ⟨0, _⟩ => rfl
    | ⟨1, _⟩ => rfl
  · match a with
    | ⟨0, _⟩ => rfl
    | ⟨1, _⟩ => rfl

/-- The shift: at row `r` the reference's maximum is the maximum from `⊥` of the row's 64 scores, taken against `⊥`
    once more. -/
theorem rowmax_apply (r : Fin 16384) :
    val_main_v4 (F := Ideal) x0 x1 (ix1 r)
      = max (⊥ : EReal) ((Finset.univ : Finset (Fin 64)).fold max (⊥ : EReal) fun e => score x0 x1 r e) := by
  have hred : S16384x64.Reduces [1] S16384 := by decide
  have hfold : val_main_v2 (F := Ideal) x0 x1 (ix1 r)
      = (Finset.univ : Finset (Fin 64)).fold max (⊥ : EReal) (fun e => score x0 x1 r e) := by
    unfold val_main_v2
    refine (Host.reduce_eq_fold_single (α := EReal) (FloatOps.maximumf (F := Ideal) (φ := .f32)) _ _
      reducesTo_S16384x64_S16384_d1 hred h_S_ (ix1 r)).trans ?_
    show (Finset.univ : Finset (Fin 64)).fold max (Ideal.ofBits .f32 0xFF800000#32)
        (fun e => val_main_v1 (F := Ideal) x0 x1 (hred.lift (ix1 r) e)) = _
    rw [ofBits_neg_inf]
    exact congrArg (fun f => (Finset.univ : Finset (Fin 64)).fold max (⊥ : EReal) f)
      (funext fun e => (scores_apply x0 x1 _).trans rfl)
  refine (val_main_v4_apply x0 x1 (ix1 r)).trans ?_
  show max (val_main_v3 (F := Ideal) (ix1 r)) (val_main_v2 (F := Ideal) x0 x1 (ix1 r)) = _
  rw [hfold, val_main_v3_apply, val_main_cst_0_apply]
  exact congrArg (fun b => max b _) ofBits_neg_inf

/-- A shifted, exponentiated entry. -/
theorem shifted_apply (r : Fin 16384) (e : Fin 64) :
    val_main_v8 (F := Ideal) x0 x1 (ix2 r e)
      = Ideal.exp (score x0 x1 r e - max (⊥ : EReal) ((Finset.univ : Finset (Fin 64)).fold max (⊥ : EReal) fun e' => score x0 x1 r e')) := by
  have hj : idx_main_v5 (idx_main_v6 (ix2 r e)) = ix1 r := funext fun a => Fin.ext (by
    match a with
    | ⟨0, _⟩ => rfl)
  rw [val_main_v8_apply, val_main_v7_apply, val_main_v6_apply, val_main_v5_apply, hj, rowmax_apply, scores_apply]
  rfl

/-- The divisor: at `(r, e)`, zero plus the sum of row `r`'s shifted exponentials. -/
theorem divisor_apply (r : Fin 16384) (e : Fin 64) :
    val_main_v11 (F := Ideal) x0 x1 (ix2 r e) = 0 + ∑ e' : Fin 64, val_main_v8 (F := Ideal) x0 x1 (ix2 r e') := by
  rw [val_main_v11_apply, val_main_v10_apply, val_main_v9_apply, val_main_cst_1_apply]
  refine congrArg₂ (· + ·) ?_ (Finset.sum_congr rfl fun e' _ => congrArg _ (funext fun a => Fin.ext ?_))
  · exact Ideal.ofBits_zero_f32
  · match a with
    | ⟨0, _⟩ => rfl
    | ⟨1, _⟩ => rfl

/-- THE REFERENCE IS THE GATE FUNCTION on real arguments. -/
theorem ref_eq_gate (hx : ∀ i, ∃ r : ℝ, x0 i = (r : EReal)) (hw : ∀ i, ∃ r : ℝ, x1 i = (r : EReal)) :
    val_main_v12 (F := Ideal) x0 x1 = gate x0 x1 := by
  choose xr hxr using hx
  choose wr hwr using hw
  funext i
  obtain ⟨r, e, rfl⟩ : ∃ (r : Fin 16384) (e : Fin 64), i = ix2 r e := ⟨i 0, i 1, eq_ix2 i⟩
  -- row r's scores are reals
  have ha : ∀ e' : Fin 64, score x0 x1 r e' = ((∑ k : Fin 4096, xr (ix2 r k) * wr (ix2 e' k) : ℝ) : EReal) := fun e' => by
    unfold score
    simp only [hxr, hwr]
    exact dot_real _ _
  obtain ⟨M, hM⟩ := fold_max_real (fun e' : Fin 64 => ∑ k : Fin 4096, xr (ix2 r k) * wr (ix2 e' k)) e
  rw [val_main_v12_apply, shifted_apply, divisor_apply]
  simp only [shifted_apply]
  unfold gate
  show Ideal.div _ _ = Ideal.div (Ideal.exp (score x0 x1 r e)) (∑ e' : Fin 64, Ideal.exp (score x0 x1 r e'))
  simp only [ha]
  rw [hM]
  exact softmax_shift _ M e

end Cert.ReferenceIdeal.RefValue

end
-- ==== Proof.Finite.lean ====
/-
  What the precondition says: every entry of both arguments is a real number.

  The precondition is the conjunction, over both arguments, of "every entry's absolute value is below `+∞`". On the
  extended reals `|v| = max v (-v)`, and `max v (-v) < ⊤` rules out both `v = ⊤` and `v = ⊥` (whose negation is `⊤`);
  what is left of the extended reals is the reals.
-/
import proofs.«165883_g14611478741617_cont_week2b_1432_18_alg».proof.Proof.Gen.Pre_finite_inputs
import Idealize.ShloMosaic.Lib.ReduceAll
import Idealize.ShloMosaic.Lib.Affine
import Idealize.ShloMosaic.Lib.ValueIdx
import Idealize.ShloMosaic.PureOps.Ideal

noncomputable section

namespace Cert.Pre_finite_inputs.Finite

open Cert.Pre_finite_inputs Idealize.ShloMosaic

instance : Subsingleton S_.Idx := ⟨fun a b => funext fun d => d.elim0⟩

/-- The pattern of `+∞` is the top of the extended reals. -/
theorem ofBits_inf : Ideal.ofBits .f32 0x7F800000#32 = ⊤ := by simp [Ideal.ofBits, Ideal.ieee]

/-- An extended real whose absolute value compares below `+∞` is a real. -/
theorem real_of_abs_lt (v : EReal) (h : Ideal.cmp .olt (max v (-v)) (Ideal.ofBits .f32 0x7F800000#32) = 1#1) :
    ∃ r : ℝ, v = (r : EReal) := by
  rw [ofBits_inf] at h
  induction v using EReal.rec with
  | bot => simp [Ideal.cmp] at h
  | coe r => exact ⟨r, rfl⟩
  | top => simp [Ideal.cmp] at h

/-- THE PRECONDITION READ: if `finite_inputs` of the two arrays is all ones, every entry of each is a real. -/
theorem reals_of_pre (x0 : FVec Ideal S16384x4096 .f32) (x1 : FVec Ideal S64x4096 .f32)
    (h : fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [fn] at h0
  obtain ⟨ha, hb⟩ := IntOp.andi_eq_one.1 h0
  refine ⟨fun i => real_of_abs_lt _ ?_, fun i => real_of_abs_lt _ ?_⟩
  · exact Host.reduce_andi_all _ _ _ _ _ ha i
  · exact Host.reduce_andi_all _ _ _ _ _ hb i

end Cert.Pre_finite_inputs.Finite

end
-- ==== Proof.lean ====
/-
  A mixture-of-experts gate: the softmax over 64 experts of `x · wᵀ` for 16384 tokens of 4096 features, computed by a
  kernel that works on 32 blocks of 512 tokens, against a reference that computes it for all tokens at once.

  The two programs differ in one step. The kernel exponentiates the scores as they are and divides by the row's
  sum, `exp (y r e) / ∑ e', exp (y r e')`. The reference first subtracts the row's maximum `M r`,
  `exp (y r e - M r) / ∑ e', exp (y r e' - M r)`. Over the reals the two agree, since `exp (y - M) = exp y / exp M`
  and the common factor `1 / exp M` cancels; over the extended reals they agree as long as every score is a real,
  which is what the precondition gives: real inputs have real dot products, and the maximum of 64 reals is a real.
  (At an infinite input the two sides really part, so the precondition is used, not just carried.)

  The parts: the law on the extended reals (LibSoftmax); the function both sides compute (Gate); the kernel's stored
  value at an entry (KernelPayload, with the column layout lemmas of LibColumns) and the whole array from the 32
  row blocks (KernelArray); the reference's term read as the same function (RefGate); the precondition read as
  "every entry is a real" (Finite). Reading the kernel on the extended reals rewrote none of its operations, so the
  idealized kernel is the kernel's own text.
-/
import proofs.«165883_g14611478741617_cont_week2b_1432_18_alg».proof.Defs
import proofs.«165883_g14611478741617_cont_week2b_1432_18_alg».proof.Proof.Gen.Kernel.Frame
import proofs.«165883_g14611478741617_cont_week2b_1432_18_alg».proof.Proof.Gen.KernelIdeal.Frame
import proofs.«165883_g14611478741617_cont_week2b_1432_18_alg».proof.Proof.Gen.KernelIdeal.Value
import proofs.«165883_g14611478741617_cont_week2b_1432_18_alg».proof.Proof.Gen.ReferenceIdeal.Run
import proofs.«165883_g14611478741617_cont_week2b_1432_18_alg».proof.Proof.Gen.ReferenceIdeal.Read
import proofs.«165883_g14611478741617_cont_week2b_1432_18_alg».proof.Proof.Gen.Pre_finite_inputs
import proofs.«165883_g14611478741617_cont_week2b_1432_18_alg».proof.Proof.KernelArray
import proofs.«165883_g14611478741617_cont_week2b_1432_18_alg».proof.Proof.RefGate
import proofs.«165883_g14611478741617_cont_week2b_1432_18_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the idealized kernel. -/
theorem preserves : Cert.preserves_Kernel_KernelIdeal := trivial

/-- Both idealized programs end with the gate function of the (agreeing, real) arguments in their result. -/
theorem algebraic : Cert.algebraic_KernelIdeal_ReferenceIdeal := by
  intro m ρ m' ρ' hpre hagree
  refine ⟨fun c => Cert.Softmax.gate (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hw⟩ := Cert.Pre_finite_inputs.Finite.reals_of_pre _ _ (hpre c)
  rw [Cert.ReferenceIdeal.Read.val_main_v12_eq, (hagree c).1, (hagree c).2]
  exact Cert.ReferenceIdeal.RefValue.ref_eq_gate _ _ hx hw

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
